-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x128 : Shape := ⟨3, ![1024, 64, 128]⟩
abbrev S128x128 : Shape := ⟨2, ![128, 128]⟩
abbrev S_ : Shape := ⟨0, ![]⟩

class Facts : Prop where
  bcast_S_S1024x64x128 : S_.BroadcastsInDim S1024x64x128 (![] : Fin 0 → Fin S1024x64x128.rank)
  reducesTo_S1024x64x128_S_d0_1_2 : S1024x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1024x64x128 .f32) (main_arg1 : FVec F S128x128 .f32) : IVec S_ 1 :=
  let main_v0 : FVec F S1024x64x128 .f32 := Host.absf main_arg0
  let main_cst : FVec F S_ .f32 := constant S_ .f32 0x7F800000#32
  let main_v1 : FVec F S1024x64x128 .f32 := broadcastInDim S1024x64x128 ![] bcast_S_S1024x64x128 main_cst
  let main_v2 : IVec S1024x64x128 1 := cmpf .olt main_v0 main_v1
  let main_c : IVec S_ 1 := constantI S_ 1 1#1
  let main_v3 : IVec S_ 1 := (fun x v => Host.reduce IntOp.andi x v reducesTo_S1024x64x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S1024x64x128 : Shape := ⟨3, ![1024, 64, 128]⟩
abbrev S128x128 : Shape := ⟨2, ![128, 128]⟩
abbrev S64x64x1024 : Shape := ⟨3, ![64, 64, 1024]⟩
abbrev S128x64x128 : Shape := ⟨3, ![128, 64, 128]⟩
abbrev S64x64x128 : Shape := ⟨3, ![64, 64, 128]⟩
abbrev S8192x128 : Shape := ⟨2, ![8192, 128]⟩
abbrev S128x64x64 : Shape := ⟨3, ![128, 64, 64]⟩
abbrev S128x64 : Shape := ⟨2, ![128, 64]⟩
abbrev S128x64x1 : Shape := ⟨3, ![128, 64, 1]⟩
abbrev S128x1x64 : Shape := ⟨3, ![128, 1, 64]⟩
abbrev S128x4096 : Shape := ⟨2, ![128, 4096]⟩
abbrev S4096x128 : Shape := ⟨2, ![4096, 128]⟩
abbrev S1024x64x64 : Shape := ⟨3, ![1024, 64, 64]⟩

abbrev nBuf : Space → Nat
  | .hbm => 4
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S64x64x1024, .f32⟩
  | .hbm, ⟨3, _⟩ => ⟨S1024x64x64, .f32⟩
  | .local _ .vmem, ⟨0, _⟩ => ⟨S128x64x128, .f32⟩
  | .local _ .vmem, ⟨1, _⟩ => ⟨S128x64x128, .f32⟩
  | .local _ .vmem, ⟨2, _⟩ => ⟨S128x128, .f32⟩
  | .local _ .vmem, ⟨3, _⟩ => ⟨S64x64x128, .f32⟩
  | .local _ .vmem, ⟨4, _⟩ => ⟨S64x64x128, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x64x128_S128x64x128_0_0_0 : ∀ a, (![0, 0, 0] : Fin 3 → Nat) a + S128x64x128.size a ≤ S128x64x128.size a
  h_S128x64x128 : 0 < S128x64x128.numel
  inb_S128x128_S128x128_0_0 : ∀ a, (![0, 0] : Fin 2 → Nat) a + S128x128.size a ≤ S128x128.size a
  h_S128x128 : 0 < S128x128.numel
  shapeCasts_S128x64x128_S8192x128 : S128x64x128.ShapeCasts S8192x128
  shapeCasts_S8192x128_S128x64x128 : S8192x128.ShapeCasts S128x64x128
  reduces_S128x64x128_S128x64 : S128x64x128.Reduces [2] S128x64
  shapeCasts_S128x64_S128x64x1 : S128x64.ShapeCasts S128x64x1
  shapeCasts_S128x64_S128x1x64 : S128x64.ShapeCasts S128x1x64
  broadcasts_S128x64x1_S128x64x64 : S128x64x1.Broadcasts S128x64x64
  broadcasts_S128x1x64_S128x64x64 : S128x1x64.Broadcasts S128x64x64
  shapeCasts_S128x64x64_S128x4096 : S128x64x64.ShapeCasts S128x4096
  transposes_S128x4096_p1_0_S4096x128 : S128x4096.Transposes [1, 0] S4096x128
  shapeCasts_S4096x128_S64x64x128 : S4096x128.ShapeCasts S64x64x128
  inb_S64x64x128_S64x64x128_0_0_0 : ∀ a, (![0, 0, 0] : Fin 3 → Nat) a + S64x64x128.size a ≤ S64x64x128.size a
  h_S64x64x128 : 0 < S64x64x128.numel
  transposes_S64x64x1024_S1024x64x64_2_0_1 : S64x64x1024.Transposes [2, 0, 1] S1024x64x64
  dot_S8192x128_S128x128_S8192x128_1_0_0_1_n_n_wf : DotDims.WF S8192x128 S128x128 S8192x128 [1] [0] [0] [1] [] []
  dot_S128x64x128_S128x64x128_S128x64x64_2_2_1_1_0_0_wf : DotDims.WF S128x64x128 S128x64x128 S128x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S1024x64x128.size a
  hwx0_0 : ∀ i : grid0.Coords, EltTy.bits .f32 = 32 ∨ (Rect.block (s := S1024x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S64x64x1024.size a
  hwx0_2 : ∀ i : grid0.Coords, EltTy.bits .f32 = 32 ∨ (Rect.block (s := S64x64x1024) S64x64x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64x128 : Shape := ⟨3, ![1024, 64, 128]⟩
abbrev S128x128 : Shape := ⟨2, ![128, 128]⟩
abbrev S_ : Shape := ⟨0, ![]⟩
abbrev S1026x64x128 : Shape := ⟨3, ![1026, 64, 128]⟩
abbrev S342x1x12288 : Shape := ⟨3, ![342, 1, 12288]⟩
abbrev S3x64x128 : Shape := ⟨3, ![3, 64, 128]⟩
abbrev S1x1x12288 : Shape := ⟨3, ![1, 1, 12288]⟩
abbrev S192x128 : Shape := ⟨2, ![192, 128]⟩
abbrev S3x64x1x128 : Shape := ⟨4, ![3, 64, 1, 128]⟩
abbrev S3x1x64x128 : Shape := ⟨4, ![3, 1, 64, 128]⟩
abbrev S3x64x64x128 : Shape := ⟨4, ![3, 64, 64, 128]⟩
abbrev S3x64x64 : Shape := ⟨3, ![3, 64, 64]⟩
abbrev S1026x64x64 : Shape := ⟨3, ![1026, 64, 64]⟩
abbrev S1024x64x64 : Shape := ⟨3, ![1024, 64, 64]⟩

abbrev nBuf : Space → Nat
  | .hbm => 8
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S_, .i32⟩
  | .hbm, ⟨3, _⟩ => ⟨S_, .f32⟩
  | .hbm, ⟨4, _⟩ => ⟨S1026x64x128, .f32⟩
  | .hbm, ⟨5, _⟩ => ⟨S342x1x12288, .f32⟩
  | .hbm, ⟨6, _⟩ => ⟨S1026x64x64, .f32⟩
  | .hbm, ⟨7, _⟩ => ⟨S1024x64x64, .f32⟩
  | .local _ .vmem, ⟨0, _⟩ => ⟨S3x64x128, .f32⟩
  | .local _ .vmem, ⟨1, _⟩ => ⟨S3x64x128, .f32⟩
  | .local _ .vmem, ⟨2, _⟩ => ⟨S128x128, .f32⟩
  | .local _ .vmem, ⟨3, _⟩ => ⟨S1x1x12288, .f32⟩
  | .local _ .vmem, ⟨4, _⟩ => ⟨S1x1x12288, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![342], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S1024x64x128_S1026x64x128_020_000_000 : S1024x64x128.Pads (![0, 0, 0] : Fin 3 → Nat) ![2, 0, 0] ![0, 0, 0] S1026x64x128
  h_S_ : 0 < S_.numel
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128x128_S128x128_0_0 : ∀ a, (![0, 0] : Fin 2 → Nat) a + S128x128.size a ≤ S128x128.size a
  h_S128x128 : 0 < S128x128.numel
  shapeCasts_S3x64x128_S192x128 : S3x64x128.ShapeCasts S192x128
  shapeCasts_S192x128_S3x64x128 : S192x128.ShapeCasts S3x64x128
  shapeCasts_S3x64x128_S3x64x1x128 : S3x64x128.ShapeCasts S3x64x1x128
  shapeCasts_S3x64x128_S3x1x64x128 : S3x64x128.ShapeCasts S3x1x64x128
  broadcasts_S3x64x1x128_S3x64x64x128 : S3x64x1x128.Broadcasts S3x64x64x128
  broadcasts_S3x1x64x128_S3x64x64x128 : S3x1x64x128.Broadcasts S3x64x64x128
  reduces_S3x64x64x128_S3x64x64 : S3x64x64x128.Reduces [3] S3x64x64
  shapeCasts_S3x64x64_S1x1x12288 : S3x64x64.ShapeCasts S1x1x12288
  inb_S1x1x12288_S1x1x12288_0_0_0 : ∀ a, (![0, 0, 0] : Fin 3 → Nat) a + S1x1x12288.size a ≤ S1x1x12288.size a
  h_S1x1x12288 : 0 < S1x1x12288.numel
  shapeCasts_S342x1x12288_S1026x64x64 : S342x1x12288.ShapeCasts S1026x64x64
  slices_S1026x64x64_S1024x64x64_0_0_0 : S1026x64x64.Slices ![0, 0, 0] S1024x64x64
  dot_S192x128_S128x128_S192x128_1_0_0_1_n_n_wf : DotDims.WF S192x128 S128x128 S192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64x128.size a ≤ S1026x64x128.size a
  hwx0_0 : ∀ i : grid0.Coords, EltTy.bits .f32 = 32 ∨ (Rect.block (s := S1026x64x128) S3x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x12288.size a ≤ S342x1x12288.size a
  hwx0_2 : ∀ i : grid0.Coords, EltTy.bits .f32 = 32 ∨ (Rect.block (s := S342x1x12288) S1x1x12288.size (cc0_transform_2 i) (hinb0_2 i)).WholeWords (EltTy.packing .f32)

variable [Facts₀]

def dot_S192x128_S128x128_S192x128_1_0_0_1_n_n : DotDims S192x128 S128x128 S192x128 where
  lhsContracting := [1]
  rhsContracting := [0]
  lhsNonContracting := [0]
  rhsNonContracting := [1]
  lhsBatch := []
  rhsBatch := []
  wf := dot_S192x128_S128x128_S192x128_1_0_0_1_n_n_wf

abbrev win0_0 : Pipeline.Window sig grid0 :=
  Pipeline.Window.ofSpec (Memref.whole main_v0) S3x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x12288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.Spec.lean ====
import Idealize.ShloMosaic.PureOps.Ideal
import Idealize.ShloMosaic.PureOps.Ideal.Laws
import Idealize.ShloMosaic.Lib.ValueIdx
import proofs.«141451_g2000303751998475_pallasbulk_1269_19_alg».proof.Proof.LibIdealReal

/-!
# Pairwise distances between the projected tokens of a sentence

A sentence is a 64 × 128 table of extended reals. Each entry is log-normalised, `log (|v| + 1)`, each
token (row) is projected by a 128 × 128 weight matrix and squashed by the logistic function, and the
result is the 64 × 64 table of Euclidean distances between the projected tokens.

The logistic function takes every extended real, the infinities included, to a real number in
`[0, 1]`. So the projected tokens are real whatever the sentence and the weights hold, and for real
vectors `p`, `q` the squared distance `∑ (p - q)²` is `∑ p² + ∑ q² - 2 ∑ p q`, a nonnegative number
that a clamp at zero leaves alone. That is the whole law between the two ways of computing the table.
-/

noncomputable section

open Idealize.ShloMosaic Idealize.ShloMosaic.ValueIdx

namespace Cert.Dist

open Cert.Lib

/-- The batch of sentences, the weights, and the table of distances per sentence. -/
abbrev SX : Shape := ⟨3, ![1024, 64, 128]⟩
abbrev SW : Shape := ⟨2, ![128, 128]⟩
abbrev SO : Shape := ⟨3, ![1024, 64, 64]⟩

/-- Log-normalisation of one entry: `log (|v| + 1)`, the absolute value as `max v (-v)`. -/
def lognorm (v : EReal) : EReal := Ideal.log (max v (-v) + Ideal.ofBits .f32 0x3F800000#32)

/-- Coordinate `r` of projected token `i` of the sentence `s`: the logistic of the product of the
    log-normalised token with column `r` of the weights. -/
def projS (s : Fin 64 → Fin 128 → EReal) (w : SW.Idx → EReal) (i : Fin 64) (r : Fin 128) : EReal :=
  Ideal.logistic (∑ k : Fin 128, lognorm (s i k) * w (ix2 k r))

/-- The distance between projected tokens `i` and `j`: the square root of the sum of the squared
    coordinate differences. -/
def distS (s : Fin 64 → Fin 128 → EReal) (w : SW.Idx → EReal) (i j : Fin 64) : EReal :=
  Ideal.sqrt (∑ r : Fin 128, (projS s w i r - projS s w j r) * (projS s w i r - projS s w j r))

/-- The same distance from the Gram matrix: `|p_i|² + |p_j|² - 2 p_i·p_j`, clamped at zero, then the root. -/
def gramS (s : Fin 64 → Fin 128 → EReal) (w : SW.Idx → EReal) (i j : Fin 64) : EReal :=
  Ideal.sqrt (max (((∑ r : Fin 128, projS s w i r * projS s w i r) + (∑ r : Fin 128, projS s w j r * projS s w j r))
      - Ideal.ofBits .f32 0x40000000#32 * (∑ r : Fin 128, projS s w i r * projS s w j r))
    (Ideal.ofBits .f32 0x00000000#32))

/-- Sentence `b` of the batch, as a table. -/
def sentence (x : SX.Idx → EReal) (b : Fin 1024) : Fin 64 → Fin 128 → EReal := fun i k => x (ix3 b i k)

/-- The result: entry `(b, i, j)` is the distance between projected tokens `i` and `j` of sentence `b`. -/
def dist (x : SX.Idx → EReal) (w : SW.Idx → EReal) : SO.Idx → EReal :=
  fun y => distS (sentence x (y 0)) w (y 1) (y 2)

theorem dist_ix3 (x : SX.Idx → EReal) (w : SW.Idx → EReal) (b : Fin 1024) (i j : Fin 64) :
    dist x w (ix3 b i j) = distS (sentence x b) w i j := rfl

/-- The logistic of any extended real is a real number: `0` at `-∞`, `1` at `+∞`. -/
theorem logistic_isReal (z : EReal) : IsReal (Ideal.logistic z) := by
  induction z using EReal.rec with
  | bot => rw [Ideal.logistic_bot]; exact IsReal.zero
  | coe r => rw [Ideal.logistic_coe]; exact IsReal.coe _
  | top => rw [Ideal.logistic_top]; exact IsReal.one

/-- Every coordinate of every projected token is real. -/
theorem projS_isReal (s : Fin 64 → Fin 128 → EReal) (w : SW.Idx → EReal) (i : Fin 64) (r : Fin 128) :
    IsReal (projS s w i r) := logistic_isReal _

/-- The `f32` pattern `0x40000000` denotes `2`. -/
theorem ofBits_f32_two : Ideal.ofBits .f32 0x40000000#32 = ((2 : ℝ) : EReal) := by
  simp [Ideal.ofBits, Ideal.ieee, -EReal.coe_mul]; norm_num

/-- In the reals: `∑ a² + ∑ b² - 2 ∑ a b = ∑ (a - b)²`. -/
theorem real_gram {κ : Type} [Fintype κ] (a b : κ → ℝ) :
    (∑ k, a k * a k) + (∑ k, b k * b k) - 2 * (∑ k, a k * b k) = ∑ k, (a k - b k) * (a k - b k) := by
  rw [Finset.mul_sum, ← Finset.sum_add_distrib, ← Finset.sum_sub_distrib]
  exact Finset.sum_congr rfl fun k _ => by ring

/-- For real vectors the Gram form of the squared distance, clamped at zero, IS the sum of squared
    differences: the two are one real number, and it is nonnegative. -/
theorem gram_eq {κ : Type} [Fintype κ] (p q : κ → EReal) (hp : ∀ k, IsReal (p k)) (hq : ∀ k, IsReal (q k)) :
    max (((∑ k, p k * p k) + (∑ k, q k * q k)) - Ideal.ofBits .f32 0x40000000#32 * (∑ k, p k * q k))
        (Ideal.ofBits .f32 0x00000000#32)
      = ∑ k, (p k - q k) * (p k - q k) := by
  choose a ha using hp
  choose b hb using hq
  simp only [ha, hb, ofBits_f32_two, Ideal.ofBits_zero_f32, ← EReal.coe_mul, ← EReal.coe_sub, coe_sum, ← EReal.coe_add]
  rw [← EReal.coe_zero, ← coe_max, real_gram]
  congr 1
  exact max_eq_left (Finset.sum_nonneg fun k _ => mul_self_nonneg _)

/-- The Gram form of the distance is the distance. -/
theorem gramS_eq (s : Fin 64 → Fin 128 → EReal) (w : SW.Idx → EReal) (i j : Fin 64) :
    gramS s w i j = distS s w i j := by
  unfold gramS distS
  rw [gram_eq (fun r => projS s w i r) (fun r => projS s w j r) (projS_isReal s w i) (projS_isReal s w j)]

end Cert.Dist

end
-- ==== Proof.KerBody.lean ====
import Idealize.ShloMosaic.Lib.Pipeline.Value
import Idealize.ShloMosaic.Lib.ValueIdx
import Idealize.ShloMosaic.Lib.ValueLayout
import Idealize.ShloMosaic.PureOps.Ideal.Laws
import proofs.«141451_g2000303751998475_pallasbulk_1269_19_alg».proof.Proof.Gen.KernelIdeal.Skeleton
import proofs.«141451_g2000303751998475_pallasbulk_1269_19_alg».proof.Proof.Spec

/-!
# What the distance kernel's body stores, entry by entry

The body loads a block of 128 sentences (128 × 64 × 128) and the weights, and stores a 64 × 64 × 128
block whose entry `(i, j, b)` is the distance between projected tokens `i` and `j` of sentence `b` of
the block: the distances are computed sentence-major, as the root of the clamped Gram form
`|p_i|² + |p_j|² - 2 p_i·p_j`, and then transposed so that the sentence is the last coordinate.
-/

set_option synthInstance.maxSize 4096

noncomputable section

namespace Cert.KernelIdeal.KerBody

open Idealize.ShloMosaic Idealize.ShloMosaic.ValueIdx
open Cert.KernelIdeal Cert.KernelIdeal.Facts₀

/-! ## The two products, entry by entry -/

/-- The projection: a product of an 8192 × 128 by a 128 × 128 matrix into a zero accumulator, at `(q, r)`,
    is the sum over `k` of `A (q, k) · B (k, r)`. -/
theorem matmul_rows_apply (A : FVec Ideal S8192x128 .f32) (B : FVec Ideal S128x128 .f32) (q : Fin 8192) (r : Fin 128) :
    matmul dot_S8192x128_S128x128_S8192x128_1_0_0_1_n_n none A B (constant S8192x128 .f32 0x00000000#32) (ix2 q r)
      = ∑ k : Fin 128, A (ix2 q k) * B (ix2 k r) := by
  refine (Ideal.matmul_constant_zero_apply dot_S8192x128_S128x128_S8192x128_1_0_0_1_n_n none A B (ix2 q r)).trans ?_
  rw [← Equiv.sum_comp (contrEquiv1 dot_S8192x128_S128x128_S8192x128_1_0_0_1_n_n 128 rfl rfl).symm]
  refine Finset.sum_congr rfl fun k _ => ?_
  have ck := contrEquiv1_symm_val dot_S8192x128_S128x128_S8192x128_1_0_0_1_n_n 128 rfl rfl k
  have l : dot_S8192x128_S128x128_S8192x128_1_0_0_1_n_n.lhsIdx (ix2 q r)
      ((contrEquiv1 dot_S8192x128_S128x128_S8192x128_1_0_0_1_n_n 128 rfl rfl).symm k) = ix2 q k := by
    funext ax; apply Fin.ext
    match ax with
    | ⟨0, _⟩ => simp [DotDims.lhsIdx, dot_S8192x128_S128x128_S8192x128_1_0_0_1_n_n]; rfl
    | ⟨1, _⟩ => simp [DotDims.lhsIdx, dot_S8192x128_S128x128_S8192x128_1_0_0_1_n_n]; exact ck
  have r' : dot_S8192x128_S128x128_S8192x128_1_0_0_1_n_n.rhsIdx (ix2 q r)
      ((contrEquiv1 dot_S8192x128_S128x128_S8192x128_1_0_0_1_n_n 128 rfl rfl).symm k) = ix2 k r := by
    funext ax; apply Fin.ext
    match ax with
    | ⟨0, _⟩ => simp [DotDims.rhsIdx, dot_S8192x128_S128x128_S8192x128_1_0_0_1_n_n]; exact ck
    | ⟨1, _⟩ => simp [DotDims.rhsIdx, dot_S8192x128_S128x128_S8192x128_1_0_0_1_n_n]; rfl
  rw [l, r']

/-- The Gram matrices: the product, sentence by sentence, of a 64 × 128 table with the transpose of another,
    into a zero accumulator, at `(b, i, j)`, is the sum over `r` of `A (b, i, r) · B (b, j, r)`. -/
theorem matmul_gram_apply (A B : FVec Ideal S128x64x128 .f32) (b : Fin 128) (i j : Fin 64) :
    matmul dot_S128x64x128_S128x64x128_S128x64x64_2_2_1_1_0_0 none A B (constant S128x64x64 .f32 0x00000000#32) (ix3 b i j)
      = ∑ r : Fin 128, A (ix3 b i r) * B (ix3 b j r) := by
  refine (Ideal.matmul_constant_zero_apply dot_S128x64x128_S128x64x128_S128x64x64_2_2_1_1_0_0 none A B (ix3 b i j)).trans ?_
  rw [← Equiv.sum_comp (contrEquiv1 dot_S128x64x128_S128x64x128_S128x64x64_2_2_1_1_0_0 128 rfl rfl).symm]
  refine Finset.sum_congr rfl fun r _ => ?_
  have cr := contrEquiv1_symm_val dot_S128x64x128_S128x64x128_S128x64x64_2_2_1_1_0_0 128 rfl rfl r
  have l : dot_S128x64x128_S128x64x128_S128x64x64_2_2_1_1_0_0.lhsIdx (ix3 b i j)
      ((contrEquiv1 dot_S128x64x128_S128x64x128_S128x64x64_2_2_1_1_0_0 128 rfl rfl).symm r) = ix3 b i r := by
    funext ax; apply Fin.ext
    match ax with
    | ⟨0, _⟩ => simp [DotDims.lhsIdx, dot_S128x64x128_S128x64x128_S128x64x64_2_2_1_1_0_0]; rfl
    | ⟨1, _⟩ => simp [DotDims.lhsIdx, dot_S128x64x128_S128x64x128_S128x64x64_2_2_1_1_0_0]; rfl
    | ⟨2, _⟩ => simp [DotDims.lhsIdx, dot_S128x64x128_S128x64x128_S128x64x64_2_2_1_1_0_0]; exact cr
  have r' : dot_S128x64x128_S128x64x128_S128x64x64_2_2_1_1_0_0.rhsIdx (ix3 b i j)
      ((contrEquiv1 dot_S128x64x128_S128x64x128_S128x64x64_2_2_1_1_0_0 128 rfl rfl).symm r) = ix3 b j r := by
    funext ax; apply Fin.ext
    match ax with
    | ⟨0, _⟩ => simp [DotDims.rhsIdx, dot_S128x64x128_S128x64x128_S128x64x64_2_2_1_1_0_0]; rfl
    | ⟨1, _⟩ => simp [DotDims.rhsIdx, dot_S128x64x128_S128x64x128_S128x64x64_2_2_1_1_0_0]; rfl
    | ⟨2, _⟩ => simp [DotDims.rhsIdx, dot_S128x64x128_S128x64x128_S128x64x64_2_2_1_1_0_0]; exact cr
  rw [l, r']

/-! ## Operations the body applies entry by entry -/

theorem sqrt_apply {s : Shape} (a : FVec Ideal s .f32) (y : s.Idx) : sqrt a y = Ideal.sqrt (a y) := rfl
theorem log_apply {s : Shape} (a : FVec Ideal s .f32) (y : s.Idx) : log a y = Ideal.log (a y) := rfl
theorem logistic_apply {s : Shape} (a : FVec Ideal s .f32) (y : s.Idx) : logistic a y = Ideal.logistic (a y) := rfl
theorem absf_apply {s : Shape} (a : FVec Ideal s .f32) (y : s.Idx) : absf a y = max (a y) (-(a y)) := rfl

/-- The sum along the last axis of a 128 × 64 × 128 array, at `(b, i)`, is the sum over `r` of the entries `(b, i, r)`. -/
theorem rowsum_apply (v : FVec Ideal S128x64x128 .f32) (b : Fin 128) (i : Fin 64) :
    multiReduction .add [2] S128x64 v 0x00000000#32 reduces_S128x64x128_S128x64 (.inl rfl) rfl (ix2 b i)
      = ∑ r : Fin 128, v (ix3 b i r) := by
  refine (Ideal.multiReduction_add_single v 0x00000000#32 reduces_S128x64x128_S128x64 (.inl rfl) rfl (ix2 b i)).trans ?_
  refine Finset.sum_congr rfl fun r _ => congrArg v ?_
  funext a; apply Fin.ext
  match a with
  | ⟨0, _⟩ => rfl
  | ⟨1, _⟩ => rfl
  | ⟨2, _⟩ => rfl

/-- A 128 × 64 table spread along a new last axis: entry `(b, i, j)` is the table's `(b, i)`. -/
theorem spread_last_apply (n : FVec Ideal S128x64 .f32) (b : Fin 128) (i j : Fin 64) :
    broadcastTo S128x64x64 (shapeCast S128x64x1 n shapeCasts_S128x64_S128x64x1) broadcasts_S128x64x1_S128x64x64 (ix3 b i j)
      = n (ix2 b i) := by
  refine (broadcastTo_apply _ broadcasts_S128x64x1_S128x64x64 (ix3 b i j) (ix3 b i (0 : Fin 1)) fun a => ?_).trans ?_
  · match a with
    | ⟨0, _⟩ => rfl
    | ⟨1, _⟩ => rfl
    | ⟨2, _⟩ => rfl
  refine shapeCast_apply n shapeCasts_S128x64_S128x64x1 (ix3 b i (0 : Fin 1)) (ix2 b i) ?_
  rw [Shape.rowMajor_val_two, Shape.rowMajor_val_three]
  show b.val * 64 + i.val = (b.val * 64 + i.val) * 1 + 0
  omega

/-- The same table spread along a new middle axis: entry `(b, i, j)` is the table's `(b, j)`. -/
theorem spread_mid_apply (n : FVec Ideal S128x64 .f32) (b : Fin 128) (i j : Fin 64) :
    broadcastTo S128x64x64 (shapeCast S128x1x64 n shapeCasts_S128x64_S128x1x64) broadcasts_S128x1x64_S128x64x64 (ix3 b i j)
      = n (ix2 b j) := by
  refine (broadcastTo_apply _ broadcasts_S128x1x64_S128x64x64 (ix3 b i j) (ix3 b (0 : Fin 1) j) fun a => ?_).trans ?_
  · match a with
    | ⟨0, _⟩ => rfl
    | ⟨1, _⟩ => rfl
    | ⟨2, _⟩ => rfl
  refine shapeCast_apply n shapeCasts_S128x64_S128x1x64 (ix3 b (0 : Fin 1) j) (ix2 b j) ?_
  rw [Shape.rowMajor_val_two, Shape.rowMajor_val_three]
  show b.val * 64 + j.val = (b.val * 1 + 0) * 64 + j.val
  omega

/-! ## The projected tokens of the block -/

/-- The body's first half: log-normalise the block, project its 8192 tokens by the weights, squash. -/
def projStage (v0 : FVec Ideal S128x64x128 .f32) (v5 : FVec Ideal S128x128 .f32) : FVec Ideal S128x64x128 .f32 :=
  shapeCast S128x64x128
    (logistic (matmul dot_S8192x128_S128x128_S8192x128_1_0_0_1_n_n none
      (shapeCast S8192x128 (log (addf (absf v0) (broadcast S128x64x128 (Scalar.ofBits .f32 0x3F800000#32))))
        shapeCasts_S128x64x128_S8192x128)
      v5 (constant S8192x128 .f32 0x00000000#32)))
    shapeCasts_S8192x128_S128x64x128

/-- Entry `(b, i, r)` of the projected block is coordinate `r` of projected token `i` of the block's sentence `b`. -/
theorem projStage_apply (x0 : FVec Ideal S128x64x128 .f32) (w0 : FVec Ideal S128x128 .f32) (b : Fin 128) (i : Fin 64) (r : Fin 128) :
    projStage x0 w0 (ix3 b i r) = Cert.Dist.projS (fun i' k => x0 (ix3 b i' k)) w0 i r := by
  unfold projStage Cert.Dist.projS
  refine (shapeCast_apply _ shapeCasts_S8192x128_S128x64x128 (ix3 b i r)
    (ix2 (⟨b.val * 64 + i.val, by have := b.isLt; have := i.isLt; omega⟩ : Fin 8192) r) ?_).trans ?_
  · rw [Shape.rowMajor_val_two, Shape.rowMajor_val_three]
    show (b.val * 64 + i.val) * 128 + r.val = (b.val * 64 + i.val) * 128 + r.val
    rfl
  rw [logistic_apply, matmul_rows_apply]
  refine congrArg Ideal.logistic (Finset.sum_congr rfl fun k _ => congrArg (· * w0 (ix2 k r)) ?_)
  refine (shapeCast_apply _ shapeCasts_S128x64x128_S8192x128
    (ix2 (⟨b.val * 64 + i.val, by have := b.isLt; have := i.isLt; omega⟩ : Fin 8192) k) (ix3 b i k) ?_).trans ?_
  · rw [Shape.rowMajor_val_two, Shape.rowMajor_val_three]
    show (b.val * 64 + i.val) * 128 + k.val = (b.val * 64 + i.val) * 128 + k.val
    rfl
  rfl

/-! ## The distances of the block, sentence last -/

/-- The body's second half, from the projected block: Gram matrices, squared norms, the clamped Gram form of the
    squared distances, the root, and the transposition that puts the sentence last. -/
def distStage (v9 : FVec Ideal S128x64x128 .f32) : FVec Ideal S64x64x128 .f32 :=
  have v10 : FVec Ideal S128x64x64 .f32 := matmul dot_S128x64x128_S128x64x128_S128x64x64_2_2_1_1_0_0 none v9 v9 (constant S128x64x64 .f32 0x00000000#32)
  have v11 : FVec Ideal S128x64x128 .f32 := mulf v9 v9
  have v12 : FVec Ideal S128x64 .f32 := multiReduction .add [2] S128x64 v11 0x00000000#32 reduces_S128x64x128_S128x64 (.inl rfl) rfl
  have v15 : FVec Ideal S128x64x64 .f32 := broadcastTo S128x64x64 (shapeCast S128x64x1 v12 shapeCasts_S128x64_S128x64x1) broadcasts_S128x64x1_S128x64x64
  have v16 : FVec Ideal S128x64x64 .f32 := broadcastTo S128x64x64 (shapeCast S128x1x64 v12 shapeCasts_S128x64_S128x1x64) broadcasts_S128x1x64_S128x64x64
  have v20 : FVec Ideal S128x64x64 .f32 := subf (addf v15 v16) (mulf (broadcast S128x64x64 (Scalar.ofBits .f32 0x40000000#32)) v10)
  have v23 : FVec Ideal S128x64x64 .f32 := sqrt (maximumf v20 (broadcast S128x64x64 (Scalar.ofBits .f32 0x00000000#32)))
  shapeCast S64x64x128 (transpose S4096x128 [1, 0] (shapeCast S128x4096 v23 shapeCasts_S128x64x64_S128x4096) transposes_S128x4096_p1_0_S4096x128)
    shapeCasts_S4096x128_S64x64x128

/-- Entry `(i, j, b)` of the stored block, from the projected block `p`: the root of
    `max (|p_i|² + |p_j|² - 2 p_i·p_j) 0` over the tokens of sentence `b`. -/
theorem distStage_apply (p : FVec Ideal S128x64x128 .f32) (i j : Fin 64) (b : Fin 128) :
    distStage p (ix3 i j b)
      = Ideal.sqrt (max (((∑ r : Fin 128, p (ix3 b i r) * p (ix3 b i r)) + (∑ r : Fin 128, p (ix3 b j r) * p (ix3 b j r)))
          - Ideal.ofBits .f32 0x40000000#32 * (∑ r : Fin 128, p (ix3 b i r) * p (ix3 b j r)))
        (Ideal.ofBits .f32 0x00000000#32)) := by
  unfold distStage
  dsimp only
  refine (shapeCast_apply _ shapeCasts_S4096x128_S64x64x128 (ix3 i j b)
    (ix2 (⟨i.val * 64 + j.val, by have := i.isLt; have := j.isLt; omega⟩ : Fin 4096) b) ?_).trans ?_
  · rw [Shape.rowMajor_val_two, Shape.rowMajor_val_three]
    show (i.val * 64 + j.val) * 128 + b.val = (i.val * 64 + j.val) * 128 + b.val
    rfl
  refine (transpose_ix2_apply _ transposes_S128x4096_p1_0_S4096x128
    (⟨i.val * 64 + j.val, by have := i.isLt; have := j.isLt; omega⟩ : Fin 4096) b).trans ?_
  refine (shapeCast_apply _ shapeCasts_S128x64x64_S128x4096
    (ix2 b (⟨i.val * 64 + j.val, by have := i.isLt; have := j.isLt; omega⟩ : Fin 4096)) (ix3 b i j) ?_).trans ?_
  · rw [Shape.rowMajor_val_two, Shape.rowMajor_val_three]
    show (b.val * 64 + i.val) * 64 + j.val = b.val * 4096 + (i.val * 64 + j.val)
    omega
  rw [sqrt_apply, maximumf_apply, subf_apply, addf_apply, mulf_apply, broadcast_apply, broadcast_apply,
    spread_last_apply, spread_mid_apply, matmul_gram_apply, rowsum_apply, rowsum_apply]
  rfl

/-! ## The body's store -/

/-- The stored value is the second half applied to the first. -/
theorem pay_eq (x0 : FVec Ideal S128x64x128 .f32) (w0 : FVec Ideal S128x128 .f32) :
    Gen.k0_pay1 (F := Ideal) x0 w0 = distStage (projStage x0 w0) := rfl

/-- Entry `(i, j, b)` of the stored block is the distance between projected tokens `i` and `j` of sentence `b`
    of the loaded block: the body computes its Gram form, which is the distance because the projected tokens are real. -/
theorem pay_apply (x0 : FVec Ideal S128x64x128 .f32) (w0 : FVec Ideal S128x128 .f32) (i j : Fin 64) (b : Fin 128) :
    Gen.k0_pay1 (F := Ideal) x0 w0 (ix3 i j b) = Cert.Dist.distS (fun i' k => x0 (ix3 b i' k)) w0 i j := by
  rw [pay_eq, distStage_apply, ← Cert.Dist.gramS_eq]
  unfold Cert.Dist.gramS
  simp only [projStage_apply]

end Cert.KernelIdeal.KerBody

end
-- ==== Proof.KerValue.lean ====
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import proofs.«141451_g2000303751998475_pallasbulk_1269_19_alg».proof.Proof.Gen.KernelIdeal.Frame
import proofs.«141451_g2000303751998475_pallasbulk_1269_19_alg».proof.Proof.KerBody
import proofs.«141451_g2000303751998475_pallasbulk_1269_19_alg».proof.Proof.Spec

/-!
# The distance kernel's result, as one function of its arguments

The kernel walks the batch in 8 blocks of 128 sentences. At each block it writes, into a
64 × 64 × 1024 array whose LAST coordinate is the sentence, the 64 × 64 × 128 slab of that block's
distances; the 8 slabs tile the array. The host then moves the sentence coordinate to the front.
So the result at `(b, i, j)` is the distance between projected tokens `i` and `j` of sentence `b`.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The table of distances with the sentence as the LAST coordinate: what the region's output array holds. -/
def distLast (x : S1024x64x128.Idx → EReal) (w : S128x128.Idx → EReal) : S64x64x1024.Idx → EReal :=
  fun z => Cert.Dist.distS (Cert.Dist.sentence x (z 2)) w (z 0) (z 1)

/-- The block index maps over the 8 grid points: the sentences' block index is the output's block index on its last
    axis, every other block index is zero, and there are 8 blocks. -/
theorem idx_facts : ∀ t : Fin cfg0.N,
    win0_0.index t (0 : Fin 3) = win0_2.index t (2 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) ≤ 7 :=
  (by decide +kernel : ∀ t : Fin grid0.N, _)

/-- Every one of the 8 slabs is some grid point's. -/
theorem idx_onto : ∀ q : Fin 8, ∃ t : Fin cfg0.N, win0_2.index t = ![0, 0, q.val] :=
  (by decide +kernel : ∀ q : Fin 8, ∃ t : Fin grid0.N, win0_2.index t = ![0, 0, q.val])

/-- Sentence `b` of the block fetched at point `t` is sentence `128 · (slab index) + b` of the batch. -/
theorem xblk_apply (c : Dev nD) (t : Fin cfg0.N) (b : Fin 128) (i : Fin 64) (k : Fin 128) (B : Fin 1024)
    (hB : B.val = win0_2.index t (2 : Fin 3) * 128 + b.val) :
    (iblk m c 0 t : FVec Ideal S128x64x128 .f32) (ix3 b i k) = (V m c main_arg0 : S1024x64x128.Idx → EReal) (ix3 B i k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 128 + 1 * b.val = B.val; omega
  | ⟨1, _⟩ => show win0_0.index t (1 : Fin 3) * 64 + 1 * i.val = i.val; omega
  | ⟨2, _⟩ => show win0_0.index t (2 : Fin 3) * 128 + 1 * k.val = k.val; omega

/-- The weights' block at every point is the whole weight matrix. -/
theorem wblk_eq (c : Dev nD) (t : Fin cfg0.N) :
    (iblk m c 1 t : FVec Ideal S128x128 .f32) = (V m c main_arg1 : S128x128.Idx → EReal) := by
  obtain ⟨-, -, -, e3, e4, -⟩ := idx_facts t
  funext j
  unfold iblk
  rw [View.read_apply]
  show V m c main_arg1 _ = V m c main_arg1 j
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- What a body stores from a block `x0` whose sentences are sentences `128 q + b` of a batch `X`: slab `q` of the
    sentence-last table of distances of `X`. -/
theorem slab_eq (x0 : FVec Ideal S128x64x128 .f32) (w0 : FVec Ideal S128x128 .f32) (X : S1024x64x128.Idx → EReal)
    (y : S64x64x128.Idx) (z : S64x64x1024.Idx)
    (hx : ∀ (i : Fin 64) (k : Fin 128), x0 (ix3 (y 2) i k) = X (ix3 (z 2) i k))
    (h0 : z 0 = y 0) (h1 : z 1 = y 1) :
    Gen.k0_pay1 (F := Ideal) x0 w0 y = distLast X w0 z := by
  have hy : y = ix3 (n0 := 64) (n1 := 64) (n2 := 128) (y 0) (y 1) (y 2) := eq_ix3 y
  refine (congrArg (Gen.k0_pay1 (F := Ideal) x0 w0) hy).trans ?_
  refine (Cert.KernelIdeal.KerBody.pay_apply x0 w0 (y 0) (y 1) (y 2)).trans ?_
  unfold distLast Cert.Dist.sentence
  rw [h0, h1]
  congr 1
  funext i k
  exact hx i k

/-- WHAT POINT `t` WRITES BACK is block `t` of the sentence-last table of distances of the arguments. -/
theorem flushed_eq (c : Dev nD) (t : Fin cfg0.N) :
    (dats m 0 c).flushed 2 t
      = ((cfg0.win 2).blk t).view.read (Elt Ideal) (distLast (V m c main_arg0) (V m c main_arg1)) := by
  show (cfg0.win 2).cut (grid0.coords t) ((dats m 0 c).after 2 t) = _
  rw [after0_2]
  unfold out0_2
  rw [View.canon_unit_zero hz3]
  simp only [View.ld_unit_zero (S := S128x64x128) hz3, View.ld_unit_zero (S := S128x128) hz2]
  obtain ⟨e0, e1, e2, e3, e4, e5, e6, e7⟩ := idx_facts t
  funext y
  show Gen.k0_pay1 (F := Ideal) (iblk m c 0 t) (iblk m c 1 t) y
    = distLast (V m c main_arg0) (V m c main_arg1) (((cfg0.win 2).blk t).view.emb y)
  rw [wblk_eq m c t]
  have hy2 : (y 2).val < 128 := (y 2).isLt
  have hz2v : ((((cfg0.win 2).blk t).view.emb y) 2).val = win0_2.index t (2 : Fin 3) * 128 + 1 * (y 2).val := rfl
  refine slab_eq (iblk m c 0 t) (V m c main_arg1) (V m c main_arg0) y (((cfg0.win 2).blk t).view.emb y) (fun i k => ?_) ?_ ?_
  · exact xblk_apply m c t (y 2) i k _ (by rw [hz2v]; omega)
  · apply Fin.ext
    show win0_2.index t (0 : Fin 3) * 64 + 1 * (y 0).val = (y 0).val
    omega
  · apply Fin.ext
    show win0_2.index t (1 : Fin 3) * 64 + 1 * (y 1).val = (y 1).val
    omega

/-- An index of the output array is in point `t`'s block iff each coordinate is in the block's range on its axis. -/
theorem mem_blk (t : Fin cfg0.N) (z : S64x64x1024.Idx) :
    z ∈ ((cfg0.win 2).blk t).view.set ↔ ∀ a : Fin 3, win0_2.index t a * S64x64x128.size a ≤ (z a).val
      ∧ (z a).val < win0_2.index t a * S64x64x128.size a + S64x64x128.size a := by
  show z ∈ ((View.whole main_v0).slice (win0_2.rect t)).set ↔ _
  rw [View.set_slice_whole, Rect.mem_set_unit]
  exact Iff.rfl

/-- The 8 slabs cover the array: sentence `s` is in slab `s / 128`. -/
theorem cover (z : S64x64x1024.Idx) :
    ∃ t : Fin cfg0.N, (cfg0.win 2).flush t = true ∧ z ∈ ((cfg0.win 2).blk t).view.set := by
  have h0 : (z 0).val < 64 := (z 0).isLt
  have h1 : (z 1).val < 64 := (z 1).isLt
  have h2 : (z 2).val < 1024 := (z 2).isLt
  obtain ⟨t, ht⟩ := idx_onto ⟨(z 2).val / 128, by omega⟩
  have q0 : win0_2.index t (0 : Fin 3) = 0 := congrFun ht 0
  have q1 : win0_2.index t (1 : Fin 3) = 0 := congrFun ht 1
  have q2 : win0_2.index t (2 : Fin 3) = (z 2).val / 128 := congrFun ht 2
  refine ⟨t, flush0_2 t, ?_⟩
  rw [mem_blk]
  intro a
  match a with
  | ⟨0, _⟩ => show win0_2.index t (0 : Fin 3) * 64 ≤ (z 0).val ∧ (z 0).val < win0_2.index t (0 : Fin 3) * 64 + 64; omega
  | ⟨1, _⟩ => show win0_2.index t (1 : Fin 3) * 64 ≤ (z 1).val ∧ (z 1).val < win0_2.index t (1 : Fin 3) * 64 + 64; omega
  | ⟨2, _⟩ => show win0_2.index t (2 : Fin 3) * 128 ≤ (z 2).val ∧ (z 2).val < win0_2.index t (2 : Fin 3) * 128 + 128; omega

/-- THE OUTPUT ARRAY after the region: the sentence-last table of distances of the arguments. -/
theorem final (c : Dev nD) : (dats m 0 c).arrAt 2 cfg0.N = distLast (V m c main_arg0) (V m c main_arg1) :=
  (dats m 0 c).arrAt_eq_of_cover 2 _ (fun t _ => flushed_eq m c t) cover

/-! ## The host's transposition, and the run -/

/-- Moving the sentence coordinate of the sentence-last table to the front gives the table of distances. -/
theorem transpose_distLast (x : S1024x64x128.Idx → EReal) (w : S128x128.Idx → EReal)
    (h : S64x64x1024.Transposes [2, 0, 1] S1024x64x64) :
    transpose S1024x64x64 [2, 0, 1] (distLast x w) h = Cert.Dist.dist x w := by
  funext z
  refine (transpose_apply [2, 0, 1] (distLast x w) h z
    (ix3 (n0 := 64) (n1 := 64) (n2 := 1024) (z 1) (z 2) (z 0)) fun b => ?_).trans ?_
  · match b with
    | ⟨0, _⟩ => rfl
    | ⟨1, _⟩ => rfl
    | ⟨2, _⟩ => rfl
  rfl

/-- The result buffer after the host's line: the table of distances of the argument arrays. -/
theorem result_eq (c : Dev nD) :
    Pipeline.afterTail₀ cfgs (dats m) 0 (V0 m) [hostOps1] c main_v1
      = Cert.Dist.dist (m ((c.tc : Thread nD τ).loc main_arg0)) (m ((c.tc : Thread nD τ).loc main_arg1)) := by
  have harr := (Pipeline.withArrays_arr spec0 launch0.win.arr_inj c (V0 m c)
    (fun w => (dats m 0 c).arrAt w cfg0.N) 2).trans (final m c)
  unfold Pipeline.afterTail₀
  show StableHlo.after hostOps1 _ (Proc.devRef .tc main_v1) = _
  after_results
  refine Eq.trans (congrArg (fun v : S64x64x1024.Idx → EReal =>
    transpose S1024x64x64 [2, 0, 1] v Facts₀.transposes_S64x64x1024_S1024x64x64_2_0_1) harr) ?_
  rw [V_main_arg0, V_main_arg1]
  exact transpose_distLast _ _ _

/-- The result buffer is unscoped and is no window's array, so the region leaves it to the host's line. -/
theorem result_rest : main_v1 ∈ Pipeline.restRefs sig (cfgs 0).spec :=
  Pipeline.mem_restRefs_of main_v1 rfl (fun w => by fin_cases w <;> decide)

/-- THE RUN: every weakly fair execution terminates with the result at the table of distances of the argument
    arrays, and the argument arrays unchanged. -/
theorem run :
    θ_run (defs (F := Ideal)) (onTc (τ := τ) (main (F := Ideal))) ⟨m, fun _ => 0, ρ⟩ (fun r => ∀ c : Dev nD,
      r.2.mem ((c.tc : Thread nD τ).loc main_v1)
          = Cert.Dist.dist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v1 result_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KerValue

end
-- ==== Proof.RefBody.lean ====
import proofs.«141451_g2000303751998475_pallasbulk_1269_19_alg».proof.Proof.Spec
import proofs.«141451_g2000303751998475_pallasbulk_1269_19_alg».proof.Proof.Gen.ReferenceIdeal.Skeleton
import Idealize.ShloMosaic.Lib.Pipeline.Value
import Idealize.ShloMosaic.Lib.ValueIdx
import Idealize.ShloMosaic.PureOps.Ideal.Laws

/-!
# One block of three sentences: the stored value, entry by entry

The reference's body loads a block of three sentences (a 3 × 64 × 128 table) and the 128 × 128 weights and
stores one row of 12288 numbers. Entry `bb * 4096 + i * 64 + j` of that row is the distance between projected
tokens `i` and `j` of sentence `bb` of the block: the log-normalised sentences are stacked into a 192 × 128 table,
multiplied by the weights and squashed by the logistic function; the projected tokens are laid side by side along
a fourth axis in the two possible ways, subtracted, squared, summed along the coordinate axis, and the root is taken.
Each step is read at one index here, outermost last.
-/

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.Dist

/-- Sentence `bb` of a block of three sentences, as a table. -/
def blockSentence (x0 : FVec Ideal S3x64x128 .f32) (bb : Fin 3) : Fin 64 → Fin 128 → EReal :=
  fun i k => x0 (ix3 bb i k)

/-! ## Log-normalisation -/

/-- The block with every entry log-normalised: `log (|v| + 1)`. -/
def lognBlock (x0 : FVec Ideal S3x64x128 .f32) : FVec Ideal S3x64x128 .f32 :=
  log (addf (absf (shapeCast S3x64x128 x0 shapeCasts_S3x64x128_S3x64x128))
    (broadcast S3x64x128 (Scalar.ofBits .f32 0x3F800000#32)))

/-- Its entry `(bb, i, k)` is the log-normalised entry `(bb, i, k)` of the block. -/
theorem lognBlock_apply (x0 : FVec Ideal S3x64x128 .f32) (bb : Fin 3) (i : Fin 64) (k : Fin 128) :
    lognBlock x0 (ix3 bb i k) = lognorm (x0 (ix3 bb i k)) := by
  unfold lognBlock lognorm
  rw [shapeCast_self]
  rfl

/-! ## The projection: a 192 × 128 by 128 × 128 product, one contracted axis -/

/-- Row of the product's left factor: the result's row. -/
theorem lhs_row (i : S192x128.Idx) (q : dot_S192x128_S128x128_S192x128_1_0_0_1_n_n.contr.Idx) :
    (dot_S192x128_S128x128_S192x128_1_0_0_1_n_n.lhsIdx i q 0).val = (i 0).val := by
  unfold DotDims.lhsIdx
  rw [dif_neg (show ¬(0 : Fin S192x128.rank) ∈ dot_S192x128_S128x128_S192x128_1_0_0_1_n_n.lhsBatch by decide),
    dif_pos (show (0 : Fin S192x128.rank) ∈ dot_S192x128_S128x128_S192x128_1_0_0_1_n_n.lhsNonContracting by decide)]
  rfl
/-- Column of the left factor: the contracted coordinate. -/
theorem lhs_col (i : S192x128.Idx) (q : dot_S192x128_S128x128_S192x128_1_0_0_1_n_n.contr.Idx) :
    (dot_S192x128_S128x128_S192x128_1_0_0_1_n_n.lhsIdx i q 1).val = (q ⟨0, by decide⟩).val :=
  dot_S192x128_S128x128_S192x128_1_0_0_1_n_n.lhsIdx_val_of_single rfl i q
/-- Row of the right factor: the contracted coordinate. -/
theorem rhs_row (i : S192x128.Idx) (q : dot_S192x128_S128x128_S192x128_1_0_0_1_n_n.contr.Idx) :
    (dot_S192x128_S128x128_S192x128_1_0_0_1_n_n.rhsIdx i q 0).val = (q ⟨0, by decide⟩).val :=
  dot_S192x128_S128x128_S192x128_1_0_0_1_n_n.rhsIdx_val_of_single rfl i q
/-- Column of the right factor: the result's column. -/
theorem rhs_col (i : S192x128.Idx) (q : dot_S192x128_S128x128_S192x128_1_0_0_1_n_n.contr.Idx) :
    (dot_S192x128_S128x128_S192x128_1_0_0_1_n_n.rhsIdx i q 1).val = (i 1).val := by
  unfold DotDims.rhsIdx
  rw [dif_neg (show ¬(1 : Fin S128x128.rank) ∈ dot_S192x128_S128x128_S192x128_1_0_0_1_n_n.rhsBatch by decide),
    dif_pos (show (1 : Fin S128x128.rank) ∈ dot_S192x128_S128x128_S192x128_1_0_0_1_n_n.rhsNonContracting by decide)]
  rfl

/-- Row `p = bb * 64 + i` of the stacked log-normalised sentences times column `r` of the weights: the sum over the
    128 token coordinates of sentence `bb`'s log-normalised token `i` against that column. -/
theorem product_entry (x0 : FVec Ideal S3x64x128 .f32) (w0 : FVec Ideal S128x128 .f32) (bb : Fin 3) (i : Fin 64)
    (r : Fin 128) (p : Fin 192) (hp : p.val = bb.val * 64 + i.val) :
    matmul dot_S192x128_S128x128_S192x128_1_0_0_1_n_n none (shapeCast S192x128 (lognBlock x0) shapeCasts_S3x64x128_S192x128) w0
        (constant (F := Ideal) S192x128 .f32 0x00000000#32) (ix2 p r)
      = ∑ k : Fin 128, lognorm (blockSentence x0 bb i k) * w0 (ix2 k r) := by
  refine (Ideal.matmul_constant_zero_apply _ _ _ _ _).trans ?_
  rw [← Equiv.sum_comp (contrEquiv1 dot_S192x128_S128x128_S192x128_1_0_0_1_n_n 128 rfl rfl).symm]
  refine Finset.sum_congr rfl fun k _ => ?_
  have hk := contrEquiv1_symm_val dot_S192x128_S128x128_S192x128_1_0_0_1_n_n 128 rfl rfl k
  have el : dot_S192x128_S128x128_S192x128_1_0_0_1_n_n.lhsIdx (ix2 p r) ((contrEquiv1 dot_S192x128_S128x128_S192x128_1_0_0_1_n_n 128 rfl rfl).symm k) = ix2 p k :=
    funext fun a => Fin.ext (by
      match a with
      | ⟨0, _⟩ => exact lhs_row _ _
      | ⟨1, _⟩ => exact (lhs_col _ _).trans hk)
  have er : dot_S192x128_S128x128_S192x128_1_0_0_1_n_n.rhsIdx (ix2 p r) ((contrEquiv1 dot_S192x128_S128x128_S192x128_1_0_0_1_n_n 128 rfl rfl).symm k) = ix2 k r :=
    funext fun a => Fin.ext (by
      match a with
      | ⟨0, _⟩ => exact (rhs_row _ _).trans hk
      | ⟨1, _⟩ => exact rhs_col _ _)
  rw [el, er]
  refine congrArg (· * w0 (ix2 k r)) ?_
  refine (shapeCast_apply _ _ (ix2 p k) (ix3 bb i k) ?_).trans (lognBlock_apply x0 bb i k)
  rw [Shape.rowMajor_val_three, Shape.rowMajor_val_two]
  show (bb.val * 64 + i.val) * 128 + k.val = p.val * 128 + k.val
  rw [hp]

/-- The projected tokens of the block: the logistic of that product, unstacked into three sentences again. -/
def projBlock (x0 : FVec Ideal S3x64x128 .f32) (w0 : FVec Ideal S128x128 .f32) : FVec Ideal S3x64x128 .f32 :=
  shapeCast S3x64x128
    (logistic (matmul dot_S192x128_S128x128_S192x128_1_0_0_1_n_n none (shapeCast S192x128 (lognBlock x0) shapeCasts_S3x64x128_S192x128) w0
      (constant (F := Ideal) S192x128 .f32 0x00000000#32)))
    shapeCasts_S192x128_S3x64x128

/-- Its entry `(bb, i, r)` is coordinate `r` of projected token `i` of sentence `bb`. -/
theorem projBlock_apply (x0 : FVec Ideal S3x64x128 .f32) (w0 : FVec Ideal S128x128 .f32) (bb : Fin 3) (i : Fin 64)
    (r : Fin 128) : projBlock x0 w0 (ix3 bb i r) = projS (blockSentence x0 bb) w0 i r := by
  unfold projBlock
  refine (shapeCast_apply _ _ (ix3 bb i r) (ix2 (⟨bb.val * 64 + i.val, by omega⟩ : Fin 192) r) ?_).trans ?_
  · rw [Shape.rowMajor_val_three, Shape.rowMajor_val_two]
    rfl
  · exact congrArg Ideal.logistic (product_entry x0 w0 bb i r ⟨bb.val * 64 + i.val, by omega⟩ rfl)

/-! ## The tokens side by side, two ways -/

/-- The projected tokens repeated along a new third axis: entry `(bb, i, j, r)` is coordinate `r` of token `i`. -/
def rowSide (P : FVec Ideal S3x64x128 .f32) : FVec Ideal S3x64x64x128 .f32 :=
  broadcastTo S3x64x64x128 (shapeCast S3x64x1x128 P shapeCasts_S3x64x128_S3x64x1x128)
    broadcasts_S3x64x1x128_S3x64x64x128

/-- The projected tokens repeated along a new second axis: entry `(bb, i, j, r)` is coordinate `r` of token `j`. -/
def colSide (P : FVec Ideal S3x64x128 .f32) : FVec Ideal S3x64x64x128 .f32 :=
  broadcastTo S3x64x64x128 (shapeCast S3x1x64x128 P shapeCasts_S3x64x128_S3x1x64x128)
    broadcasts_S3x1x64x128_S3x64x64x128

theorem rowSide_apply (P : FVec Ideal S3x64x128 .f32) (bb : Fin 3) (i j : Fin 64) (r : Fin 128) :
    rowSide P (ix4 bb i j r) = P (ix3 bb i r) := by
  unfold rowSide
  refine (broadcastTo_apply _ _ (ix4 bb i j r) (ix4 bb i (0 : Fin 1) r) ?_).trans ?_
  · intro a
    match a with
    | ⟨0, _⟩ => rfl
    | ⟨1, _⟩ => rfl
    | ⟨2, _⟩ => rfl
    | ⟨3, _⟩ => rfl
  · refine shapeCast_apply _ _ (ix4 bb i (0 : Fin 1) r) (ix3 bb i r) ?_
    rw [Shape.rowMajor_val_three, Shape.rowMajor_val_four]
    show (bb.val * 64 + i.val) * 128 + r.val = ((bb.val * 64 + i.val) * 1 + 0) * 128 + r.val
    omega

theorem colSide_apply (P : FVec Ideal S3x64x128 .f32) (bb : Fin 3) (i j : Fin 64) (r : Fin 128) :
    colSide P (ix4 bb i j r) = P (ix3 bb j r) := by
  unfold colSide
  refine (broadcastTo_apply _ _ (ix4 bb i j r) (ix4 bb (0 : Fin 1) j r) ?_).trans ?_
  · intro a
    match a with
    | ⟨0, _⟩ => rfl
    | ⟨1, _⟩ => rfl
    | ⟨2, _⟩ => rfl
    | ⟨3, _⟩ => rfl
  · refine shapeCast_apply _ _ (ix4 bb (0 : Fin 1) j r) (ix3 bb j r) ?_
    rw [Shape.rowMajor_val_three, Shape.rowMajor_val_four]
    show (bb.val * 64 + j.val) * 128 + r.val = ((bb.val * 1 + 0) * 64 + j.val) * 128 + r.val
    omega

/-! ## The sum along the coordinate axis -/

/-- The sum of a 3 × 64 × 64 × 128 table along its last axis, at `(bb, i, j)`: the sum over the 128 coordinates. -/
theorem coordSum_apply (T : FVec Ideal S3x64x64x128 .f32) (bb : Fin 3) (i j : Fin 64) :
    multiReduction .add [3] S3x64x64 T 0x00000000#32 reduces_S3x64x64x128_S3x64x64 (.inl rfl) rfl (ix3 bb i j)
      = ∑ r : Fin 128, T (ix4 bb i j r) := by
  refine (Ideal.multiReduction_add_single T 0x00000000#32 reduces_S3x64x64x128_S3x64x64 (.inl rfl) rfl (ix3 bb i j)).trans ?_
  show ∑ r : Fin 128, T (reduces_S3x64x64x128_S3x64x64.lift (ix3 bb i j) r) = _
  refine Finset.sum_congr rfl fun r _ => congrArg T (funext fun c => Fin.ext ?_)
  match c with
  | ⟨0, _⟩ => rfl
  | ⟨1, _⟩ => rfl
  | ⟨2, _⟩ => rfl
  | ⟨3, _⟩ => rfl

/-! ## The stored row -/

/-- The body's stored value is the root of that sum of squared differences, laid out as one row. -/
theorem stored_eq (x0 : FVec Ideal S3x64x128 .f32) (w0 : FVec Ideal S128x128 .f32) :
    k0_pay1 (F := Ideal) x0 w0
      = shapeCast S1x1x12288
          (sqrt (multiReduction .add [3] S3x64x64
            (mulf (subf (rowSide (projBlock x0 w0)) (colSide (projBlock x0 w0)))
              (subf (rowSide (projBlock x0 w0)) (colSide (projBlock x0 w0))))
            0x00000000#32 reduces_S3x64x64x128_S3x64x64 (.inl rfl) rfl))
          shapeCasts_S3x64x64_S1x1x12288 := rfl

/-- ENTRY `q = bb * 4096 + i * 64 + j` OF THE STORED ROW is the distance between projected tokens `i` and `j` of
    sentence `bb` of the block. -/
theorem stored_entry (x0 : FVec Ideal S3x64x128 .f32) (w0 : FVec Ideal S128x128 .f32) (bb : Fin 3) (i j : Fin 64)
    (q : Fin 12288) (hq : q.val = bb.val * 4096 + i.val * 64 + j.val) :
    k0_pay1 (F := Ideal) x0 w0 (ix3 (0 : Fin 1) (0 : Fin 1) q) = distS (blockSentence x0 bb) w0 i j := by
  rw [stored_eq]
  refine (shapeCast_apply _ _ (ix3 (0 : Fin 1) (0 : Fin 1) q) (ix3 bb i j) ?_).trans ?_
  · rw [Shape.rowMajor_val_three, Shape.rowMajor_val_three]
    show (bb.val * 64 + i.val) * 64 + j.val = ((0 : Fin 1).val * 1 + (0 : Fin 1).val) * 12288 + q.val
    rw [hq]
    show (bb.val * 64 + i.val) * 64 + j.val = (0 * 1 + 0) * 12288 + (bb.val * 4096 + i.val * 64 + j.val)
    omega
  · unfold distS
    refine congrArg Ideal.sqrt ?_
    refine (coordSum_apply _ bb i j).trans (Finset.sum_congr rfl fun r _ => ?_)
    show (rowSide (projBlock x0 w0) (ix4 bb i j r) - colSide (projBlock x0 w0) (ix4 bb i j r))
        * (rowSide (projBlock x0 w0) (ix4 bb i j r) - colSide (projBlock x0 w0) (ix4 bb i j r)) = _
    rw [rowSide_apply, colSide_apply, projBlock_apply, projBlock_apply]

end Cert.ReferenceIdeal.RefValue

end
-- ==== Proof.RefValue.lean ====
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.Tactic
import proofs.«141451_g2000303751998475_pallasbulk_1269_19_alg».proof.Proof.Gen.ReferenceIdeal.Frame
import proofs.«141451_g2000303751998475_pallasbulk_1269_19_alg».proof.Proof.RefBody
import proofs.«141451_g2000303751998475_pallasbulk_1269_19_alg».proof.Proof.Spec

/-!
# The reference's result, as one function of its arguments

The reference appends two zero sentences to the batch (1026 = 342 · 3 sentences), walks the padded batch in
342 blocks of 3 sentences, and at block `t` writes row `t` of a 342 × 1 × 12288 array: the three 64 × 64
tables of distances of the block's sentences, flattened one after the other. The host then reads the rows
back as 1026 tables of 64 × 64 and keeps the first 1024. Sentence `b` sits in row `b / 3` at offset
`(b mod 3) · 4096`, and below 1024 the padded batch is the batch. So the result at `(b, i, j)` is the
distance between projected tokens `i` and `j` of sentence `b`.
-/

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The rows of flattened distance tables: entry `(t, 0, q)` is the distance between projected tokens
    `(q mod 4096) / 64` and `q mod 64` of sentence `3 t + q / 4096` of the padded batch. -/
def distFlat (xp : S1026x64x128.Idx → EReal) (w : S128x128.Idx → EReal) : S342x1x12288.Idx → EReal :=
  fun z => Cert.Dist.distS
    (fun i k => xp (ix3 (⟨3 * (z 0).val + (z 2).val / 4096, by
      have h0 : (z 0).val < 342 := (z 0).isLt
      have h2 : (z 2).val < 12288 := (z 2).isLt
      omega⟩ : Fin 1026) i k)) w
    (⟨(z 2).val % 4096 / 64, by omega⟩ : Fin 64) (⟨(z 2).val % 64, by omega⟩ : Fin 64)

/-- The block index maps over the 342 grid points: point `t` fetches block `t` of the padded batch and writes
    row `t`; every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Sentence `bb` of the block fetched at point `t` is sentence `3 t + bb` of the padded batch. -/
theorem xblk_apply (c : Dev nD) (t : Fin cfg0.N) (bb : Fin 3) (i : Fin 64) (k : Fin 128) (B : Fin 1026)
    (hB : B.val = t.val * 3 + bb.val) :
    (iblk m c 0 t : FVec Ideal S3x64x128 .f32) (ix3 bb i k) = (V m c main_v0 : S1026x64x128.Idx → EReal) (ix3 B i k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 3 + 1 * bb.val = B.val; omega
  | ⟨1, _⟩ => show win0_0.index t (1 : Fin 3) * 64 + 1 * i.val = i.val; omega
  | ⟨2, _⟩ => show win0_0.index t (2 : Fin 3) * 128 + 1 * k.val = k.val; omega

/-- The weights' block at every point is the whole weight matrix. -/
theorem wblk_eq (c : Dev nD) (t : Fin cfg0.N) :
    (iblk m c 1 t : FVec Ideal S128x128 .f32) = (V m c main_arg1 : S128x128.Idx → EReal) := by
  obtain ⟨-, -, -, e3, e4, -⟩ := idx_facts t
  funext j
  unfold iblk
  rw [View.read_apply]
  show V m c main_arg1 _ = V m c main_arg1 j
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- What a body stores from a block `x0` whose sentences are sentences `3 T + bb` of a padded batch `X`: row `T` of
    the rows of flattened distance tables of `X`. -/
theorem row_eq (x0 : FVec Ideal S3x64x128 .f32) (w0 : FVec Ideal S128x128 .f32) (X : S1026x64x128.Idx → EReal)
    (y : S1x1x12288.Idx) (z : S342x1x12288.Idx) (T : Nat)
    (hx : ∀ (bb : Fin 3) (i : Fin 64) (k : Fin 128) (B : Fin 1026), B.val = T * 3 + bb.val → x0 (ix3 bb i k) = X (ix3 B i k))
    (h0 : (z 0).val = T) (h2 : (z 2).val = (y 2).val) :
    Gen.k0_pay1 (F := Ideal) x0 w0 y = distFlat X w0 z := by
  have hy0 : (y 0).val < 1 := (y 0).isLt
  have hy1 : (y 1).val < 1 := (y 1).isLt
  have hy2 : (y 2).val < 12288 := (y 2).isLt
  have hy : y = ix3 (0 : Fin 1) (0 : Fin 1) (⟨(y 2).val, hy2⟩ : Fin 12288) := by
    funext a
    apply Fin.ext
    match a with
    | ⟨0, _⟩ => show (y 0).val = 0; omega
    | ⟨1, _⟩ => show (y 1).val = 0; omega
    | ⟨2, _⟩ => rfl
  refine (congrArg (Gen.k0_pay1 (F := Ideal) x0 w0) hy).trans ?_
  refine (stored_entry x0 w0 (⟨(y 2).val / 4096, by omega⟩ : Fin 3) (⟨(y 2).val % 4096 / 64, by omega⟩ : Fin 64)
    (⟨(y 2).val % 64, by omega⟩ : Fin 64) (⟨(y 2).val, hy2⟩ : Fin 12288) (by
      show (y 2).val = (y 2).val / 4096 * 4096 + (y 2).val % 4096 / 64 * 64 + (y 2).val % 64
      omega)).trans ?_
  unfold distFlat blockSentence
  congr 1
  · funext i k
    exact hx _ i k _ (by
      show 3 * (z 0).val + (z 2).val / 4096 = T * 3 + (y 2).val / 4096
      rw [h0, h2]; omega)
  · apply Fin.ext
    show (y 2).val % 4096 / 64 = (z 2).val % 4096 / 64
    rw [h2]
  · apply Fin.ext
    show (y 2).val % 64 = (z 2).val % 64
    rw [h2]

/-- WHAT POINT `t` WRITES BACK is row `t` of the rows of flattened distance tables of the padded batch. -/
theorem flushed_eq (c : Dev nD) (t : Fin cfg0.N) :
    (dats m 0 c).flushed 2 t
      = ((cfg0.win 2).blk t).view.read (Elt Ideal) (distFlat (V m c main_v0) (V m c main_arg1)) := by
  show (cfg0.win 2).cut (grid0.coords t) ((dats m 0 c).after 2 t) = _
  rw [after0_2]
  unfold out0_2
  rw [View.canon_unit_zero hz3]
  simp only [View.ld_unit_zero (S := S3x64x128) hz3, View.ld_unit_zero (S := S128x128) hz2]
  obtain ⟨e0, e1, e2, e3, e4, e5, e6, e7⟩ := idx_facts t
  funext y
  show Gen.k0_pay1 (F := Ideal) (iblk m c 0 t) (iblk m c 1 t) y
    = distFlat (V m c main_v0) (V m c main_arg1) (((cfg0.win 2).blk t).view.emb y)
  rw [wblk_eq m c t]
  have hy0 : (y 0).val < 1 := (y 0).isLt
  have hz0v : ((((cfg0.win 2).blk t).view.emb y) 0).val = win0_2.index t (0 : Fin 3) * 1 + 1 * (y 0).val := rfl
  have hz2v : ((((cfg0.win 2).blk t).view.emb y) 2).val = win0_2.index t (2 : Fin 3) * 12288 + 1 * (y 2).val := rfl
  refine row_eq (iblk m c 0 t) (V m c main_arg1) (V m c main_v0) y (((cfg0.win 2).blk t).view.emb y) t.val
    (fun bb i k B hB => xblk_apply m c t bb i k B hB) (by rw [hz0v]; omega) (by rw [hz2v]; omega)

/-- An index of the output array is in point `t`'s block iff each coordinate is in the block's range on its axis. -/
theorem mem_blk (t : Fin cfg0.N) (z : S342x1x12288.Idx) :
    z ∈ ((cfg0.win 2).blk t).view.set ↔ ∀ a : Fin 3, win0_2.index t a * S1x1x12288.size a ≤ (z a).val
      ∧ (z a).val < win0_2.index t a * S1x1x12288.size a + S1x1x12288.size a := by
  show z ∈ ((View.whole main_v1).slice (win0_2.rect t)).set ↔ _
  rw [View.set_slice_whole, Rect.mem_set_unit]
  exact Iff.rfl

/-- The 342 rows cover the array: row `t` is point `t`'s block. -/
theorem cover (z : S342x1x12288.Idx) :
    ∃ t : Fin cfg0.N, (cfg0.win 2).flush t = true ∧ z ∈ ((cfg0.win 2).blk t).view.set := by
  have h0 : (z 0).val < 342 := (z 0).isLt
  have h1 : (z 1).val < 1 := (z 1).isLt
  have h2 : (z 2).val < 12288 := (z 2).isLt
  have hN : cfg0.N = 342 := N_0
  obtain ⟨e0, e1, e2, e3, e4, e5, e6, e7⟩ := idx_facts (⟨(z 0).val, by rw [hN]; exact h0⟩ : Fin cfg0.N)
  refine ⟨⟨(z 0).val, by rw [hN]; exact h0⟩, flush0_2 _, ?_⟩
  rw [mem_blk]
  intro a
  match a with
  | ⟨0, _⟩ =>
    show win0_2.index _ (0 : Fin 3) * 1 ≤ (z 0).val ∧ (z 0).val < win0_2.index _ (0 : Fin 3) * 1 + 1
    rw [e5]; show (z 0).val * 1 ≤ (z 0).val ∧ (z 0).val < (z 0).val * 1 + 1; omega
  | ⟨1, _⟩ =>
    show win0_2.index _ (1 : Fin 3) * 1 ≤ (z 1).val ∧ (z 1).val < win0_2.index _ (1 : Fin 3) * 1 + 1
    rw [e6]; omega
  | ⟨2, _⟩ =>
    show win0_2.index _ (2 : Fin 3) * 12288 ≤ (z 2).val ∧ (z 2).val < win0_2.index _ (2 : Fin 3) * 12288 + 12288
    rw [e7]; omega

/-- THE OUTPUT ARRAY after the region: the rows of flattened distance tables of the padded batch. -/
theorem final (c : Dev nD) : (dats m 0 c).arrAt 2 cfg0.N = distFlat (V m c main_v0) (V m c main_arg1) :=
  (dats m 0 c).arrAt_eq_of_cover 2 _ (fun t _ => flushed_eq m c t) cover

/-! ## The padding before the region -/

/-- Below sentence 1024 the padded batch, as the region finds it, is the batch. -/
theorem padded_apply (c : Dev nD) (B : Fin 1024) (i : Fin 64) (k : Fin 128) :
    (V m c main_v0 : S1026x64x128.Idx → EReal) (ix3 (⟨B.val, by have := B.isLt; omega⟩ : Fin 1026) i k)
      = (m ((c.tc : Thread nD τ).loc main_arg0) : S1024x64x128.Idx → EReal) (ix3 B i k) := by
  have e : (V m c main_v0 : S1026x64x128.Idx → EReal)
      = pad S1026x64x128 ![0, 0, 0] ![2, 0, 0] ![0, 0, 0] (m ((c.tc : Thread nD τ).loc main_arg0) : S1024x64x128.Idx → EReal)
          (sitofp (F := Ideal) .f32 (constantI S_ 32 0#32)) Facts₀.pads_S1024x64x128_S1026x64x128_020_000_000 Facts₀.h_S_ := by
    dsimp only [V, V0]
    simp only [hostOps0, hostOps0_1, List.flatten_cons, List.flatten_nil, List.append_nil, List.cons_append, List.nil_append]
    after_results
    rfl
  rw [e]
  refine pad_apply_of_inside _ _ _ _ _ _ _ _ (ix3 B i k) fun a => ?_
  match a with
  | ⟨0, _⟩ => show B.val = 0 + B.val * (0 + 1); omega
  | ⟨1, _⟩ => show i.val = 0 + i.val * (0 + 1); omega
  | ⟨2, _⟩ => show k.val = 0 + k.val * (0 + 1); omega

/-! ## The host's reshape and slice, and the run -/

/-- Reading the rows back as 1026 tables and keeping the first 1024 gives the table of distances of any batch `x`
    that the padded batch `xp` agrees with below sentence 1024. -/
theorem slice_reshape_distFlat (xp : S1026x64x128.Idx → EReal) (x : S1024x64x128.Idx → EReal) (w : S128x128.Idx → EReal)
    (hx : ∀ (B : Fin 1024) (i : Fin 64) (k : Fin 128),
      xp (ix3 (⟨B.val, by have := B.isLt; omega⟩ : Fin 1026) i k) = x (ix3 B i k))
    (h1 : S342x1x12288.ShapeCasts S1026x64x64) (h2 : S1026x64x64.Slices ![0, 0, 0] S1024x64x64) :
    extractStridedSlice S1024x64x64 ![0, 0, 0] (shapeCast S1026x64x64 (distFlat xp w) h1) h2 = Cert.Dist.dist x w := by
  funext z
  have hz0 : (z 0).val < 1024 := (z 0).isLt
  have hz1 : (z 1).val < 64 := (z 1).isLt
  have hz2 : (z 2).val < 64 := (z 2).isLt
  refine (extractStridedSlice_apply ![0, 0, 0] _ h2 z
    (ix3 (⟨(z 0).val, by omega⟩ : Fin 1026) (⟨(z 1).val, hz1⟩ : Fin 64) (⟨(z 2).val, hz2⟩ : Fin 64)) fun a => ?_).trans ?_
  · match a with
    | ⟨0, _⟩ => show (z 0).val = 0 + (z 0).val; omega
    | ⟨1, _⟩ => show (z 1).val = 0 + (z 1).val; omega
    | ⟨2, _⟩ => show (z 2).val = 0 + (z 2).val; omega
  refine (shapeCast_apply (distFlat xp w) h1
    (ix3 (⟨(z 0).val, by omega⟩ : Fin 1026) (⟨(z 1).val, hz1⟩ : Fin 64) (⟨(z 2).val, hz2⟩ : Fin 64))
    (ix3 (⟨(z 0).val / 3, by omega⟩ : Fin 342) (0 : Fin 1)
      (⟨(z 0).val % 3 * 4096 + (z 1).val * 64 + (z 2).val, by omega⟩ : Fin 12288)) ?_).trans ?_
  · rw [Shape.rowMajor_val_three, Shape.rowMajor_val_three]
    show ((z 0).val / 3 * 1 + 0) * 12288 + ((z 0).val % 3 * 4096 + (z 1).val * 64 + (z 2).val)
      = ((z 0).val * 64 + (z 1).val) * 64 + (z 2).val
    omega
  unfold distFlat Cert.Dist.dist Cert.Dist.sentence
  congr 1
  · funext i k
    have hB : (⟨3 * ((z 0).val / 3) + ((z 0).val % 3 * 4096 + (z 1).val * 64 + (z 2).val) / 4096, by omega⟩ : Fin 1026)
        = (⟨(z 0).val, by omega⟩ : Fin 1026) := Fin.ext (by show 3 * ((z 0).val / 3) + ((z 0).val % 3 * 4096 + (z 1).val * 64 + (z 2).val) / 4096 = (z 0).val; omega)
    exact (congrArg (fun B => xp (ix3 B i k)) hB).trans (hx (⟨(z 0).val, hz0⟩ : Fin 1024) i k)
  · apply Fin.ext
    show ((z 0).val % 3 * 4096 + (z 1).val * 64 + (z 2).val) % 4096 / 64 = (z 1).val
    omega
  · apply Fin.ext
    show ((z 0).val % 3 * 4096 + (z 1).val * 64 + (z 2).val) % 64 = (z 2).val
    omega

/-- The result buffer after the host's two lines: the table of distances of the argument arrays. -/
theorem result_eq (c : Dev nD) :
    Pipeline.afterTail₀ cfgs (dats m) 0 (V0 m) [hostOps1] c main_v3
      = Cert.Dist.dist (m ((c.tc : Thread nD τ).loc main_arg0)) (m ((c.tc : Thread nD τ).loc main_arg1)) := by
  have harr := (Pipeline.withArrays_arr spec0 launch0.win.arr_inj c (V0 m c)
    (fun w => (dats m 0 c).arrAt w cfg0.N) 2).trans (final m c)
  unfold Pipeline.afterTail₀
  show StableHlo.after hostOps1 _ (Proc.devRef .tc main_v3) = _
  after_results
  have harr' : Pipeline.withArrays (cfgs 0).spec c (V0 m c) (fun w => (dats m 0 c).arrAt w (cfgs 0).N)
      (Proc.devRef .tc main_v1) = distFlat (V m c main_v0) (V m c main_arg1) := harr
  rw [harr', V_main_arg1]
  exact slice_reshape_distFlat _ _ _ (padded_apply m c) _ _

/-- The result buffer is unscoped and is no window's array, so the region leaves it to the host's lines. -/
theorem result_rest : main_v3 ∈ Pipeline.restRefs sig (cfgs 0).spec :=
  Pipeline.mem_restRefs_of main_v3 (by decide) (by decide)

/-- THE RUN: every weakly fair execution terminates with the result at the table of distances of the argument
    arrays, and the argument arrays unchanged. -/
theorem run :
    θ_run (defs (F := Ideal)) (onTc (τ := τ) (main (F := Ideal))) ⟨m, fun _ => 0, ρ⟩ (fun r => ∀ c : Dev nD,
      r.2.mem ((c.tc : Thread nD τ).loc main_v3)
          = Cert.Dist.dist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 result_rest).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.RefValue

end
-- ==== Proof.lean ====
/-
  Pairwise distances between projected tokens, two ways.

  Both programs take a batch of 1024 sentences (64 tokens of 128 numbers each) and a 128 × 128 weight matrix.
  Each entry is log-normalised, `log (|v| + 1)`; each token is multiplied by the weights and squashed by the
  logistic function; the result, per sentence, is the 64 × 64 table of Euclidean distances between its projected
  tokens.

  The reference forms the differences `p_i - p_j` coordinate by coordinate, squares, sums and takes the root,
  three sentences at a time, over a batch padded with two zero sentences; the rows it writes are read back as
  tables and the first 1024 are kept. The kernel takes 128 sentences at a time, computes the Gram matrix
  `p_i · p_j` and the squared norms, forms `|p_i|² + |p_j|² - 2 p_i·p_j`, clamps it at zero, takes the root, and
  writes the tables with the sentence as the last coordinate, which the host moves to the front.

  Over the extended reals the two agree at every input: the logistic function takes every extended real to a
  real number, so the projected tokens are real, the Gram form equals the sum of squared differences as a real
  number, and that number is nonnegative, so the clamp does nothing. Neither side's value proof uses the
  finiteness of the inputs. The rest is layout: which block holds which sentence, and where each table lands.

  The three frame claims are the programs' generated frame certificates; the idealization rewrote nothing, so
  the preservation claim is trivial.
-/
import proofs.«141451_g2000303751998475_pallasbulk_1269_19_alg».proof.Defs
import proofs.«141451_g2000303751998475_pallasbulk_1269_19_alg».proof.Proof.Gen.Kernel
import proofs.«141451_g2000303751998475_pallasbulk_1269_19_alg».proof.Proof.Gen.Kernel.Skeleton
import proofs.«141451_g2000303751998475_pallasbulk_1269_19_alg».proof.Proof.Gen.Kernel.Launch
import proofs.«141451_g2000303751998475_pallasbulk_1269_19_alg».proof.Proof.Gen.Kernel.Points
import proofs.«141451_g2000303751998475_pallasbulk_1269_19_alg».proof.Proof.Gen.Kernel.Frame
import proofs.«141451_g2000303751998475_pallasbulk_1269_19_alg».proof.Proof.Gen.KernelIdeal
import proofs.«141451_g2000303751998475_pallasbulk_1269_19_alg».proof.Proof.Gen.KernelIdeal.Skeleton
import proofs.«141451_g2000303751998475_pallasbulk_1269_19_alg».proof.Proof.Gen.KernelIdeal.Launch
import proofs.«141451_g2000303751998475_pallasbulk_1269_19_alg».proof.Proof.Gen.KernelIdeal.Points
import proofs.«141451_g2000303751998475_pallasbulk_1269_19_alg».proof.Proof.Gen.KernelIdeal.Frame
import proofs.«141451_g2000303751998475_pallasbulk_1269_19_alg».proof.Proof.Gen.ReferenceIdeal
import proofs.«141451_g2000303751998475_pallasbulk_1269_19_alg».proof.Proof.Gen.ReferenceIdeal.Skeleton
import proofs.«141451_g2000303751998475_pallasbulk_1269_19_alg».proof.Proof.Gen.ReferenceIdeal.Launch
import proofs.«141451_g2000303751998475_pallasbulk_1269_19_alg».proof.Proof.Gen.ReferenceIdeal.Points
import proofs.«141451_g2000303751998475_pallasbulk_1269_19_alg».proof.Proof.Gen.ReferenceIdeal.Frame
import proofs.«141451_g2000303751998475_pallasbulk_1269_19_alg».proof.Proof.Gen.Pre_finite_inputs
import proofs.«141451_g2000303751998475_pallasbulk_1269_19_alg».proof.Proof.KerValue
import proofs.«141451_g2000303751998475_pallasbulk_1269_19_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged. -/
theorem frame_referenceIdeal : Cert.frame_ReferenceIdeal (hReferenceIdeal := Cert.ReferenceIdeal.Gen.facts) (hPre_finite_inputs := Cert.Pre_finite_inputs.Gen.facts) :=
  fun m ρ _ => Cert.ReferenceIdeal.Gen.frame m ρ

/-- From memories agreeing on the batch and the weights, both idealized programs end with the table of
    distances of those arguments as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Dist.dist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
